-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128x128 : Shape := ⟨2, ![128, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x16384 .f32) (main_arg1 : FVec F S16384x128 .f32) (main_arg2 : FVec F S128x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S16384x16384 : Shape := ⟨2, ![16384, 16384]⟩
abbrev S16384x128 : Shape := ⟨2, ![16384, 128]⟩
abbrev S128x128 : Shape := ⟨2, ![128, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 5
  | .vmem => 12
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S16384x128, .bf16⟩
  | .hbm, ⟨4, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .bf16⟩
  | .local _ .vmem, ⟨4, _⟩ => ⟨S2048x128, .bf16⟩
  | .local _ .vmem, ⟨5, _⟩ => ⟨S2048x1024, .f32⟩
  | .local _ .vmem, ⟨6, _⟩ => ⟨S2048x1024, .f32⟩
  | .local _ .vmem, ⟨7, _⟩ => ⟨S1024x128, .bf16⟩
  | .local _ .vmem, ⟨8, _⟩ => ⟨S1024x128, .bf16⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2048x128_S2048x128_0_0 : (Rect.unit (s := S2048x128) ![0, 0] S2048x128.size inb_S2048x128_S2048x128_0_0).PackedRows (EltTy.packing .bf16)
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  dot_S2048x128_S128x128_S2048x128_1_0_0_1_n_n_wf : DotDims.WF S2048x128 S128x128 S2048x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .bf16 = 32 ∨ (Rect.block (s := S16384x128) S2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .bf16 = 32 ∨ (Rect.block (s := S16384x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S16384x128, .f32⟩
  | .hbm, ⟨4, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.K.Reg0.lean ====
/-
  The first kernel region: the feature rows times the weight matrix, one block of 2048 rows per grid point.

  At each of the 8 grid points the body reads the point's 2048 × 128 block of the feature array and the whole
  128 × 128 weight array, and stores their matrix product (accumulated from zero, rounded to the narrow format)
  over the whole 2048 × 128 staging buffer of the result. Nothing is kept between points, so what a point leaves
  in the result's buffer is one function of the two input blocks. Everything here is stated at a parameter `V`,
  the contents the core's buffers hold when the region is entered.
-/
import proofs.«166611_j35304631173973_1_alg».proof.Proof.Gen.Kernel.Launch
import proofs.«166611_j35304631173973_1_alg».proof.Proof.Gen.Kernel.Skeleton
import proofs.«166611_j35304631173973_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's block of rows whenever the body is called, whether the
    pipeline fetched it at that point or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight array at every point: it is fetched once, at the first
    point, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev rX0 : Rect S2048x128 := Rect.unit (s := S2048x128) ![0, 0] S2048x128.size inb_S2048x128_S2048x128_0_0
abbrev rW0 : Rect S128x128 := Rect.unit (s := S128x128) ![0, 0] S128x128.size inb_S128x128_S128x128_0_0

/-! ## What the body leaves in the result's staging buffer -/

/-- The result window's staging buffer after the body, from the two input blocks: one store over the whole buffer,
    its value the product of the feature block and the weights. -/
def out0_2 (x0 : Vec F S2048x128 .f32) (x1 : Vec F S128x128 .f32) : Vec F S2048x128 .bf16 :=
  View.canon [⟨rX0, k0_pay1 (View.ld x0 rX0) (View.ld x1 rW0)⟩]

/-- That one store covers the buffer. -/
theorem cover0_2 (p0 : Vec F S2048x128 .bf16) (y : S2048x128.Idx) :
    ∃ pc ∈ ([⟨rX0, p0⟩] : List (View.Piece (Elt F) S2048x128 .bf16)), y ∈ pc.1.set :=
  View.cover_of_tiled [⟨rX0, p0⟩] S2048x128.size (by rfl) y

/-! ## The body's triple -/

set_option maxHeartbeats 1000000 in
/-- The body on whole staging memrefs, the inputs' at contents `x0`, `x1` and the result's at anything, runs to the
    continuation with the inputs as they were and the result's buffer at `out0_2 x0 x1`. -/
theorem sound_kernel0 (c : Dev nD) (E : Set ℕ) (i : grid0.Coords) (arg1 : Memref sig .tc .vmem S2048x128 .f32) (harg1 : arg1.IsWhole)
    (arg2 : Memref sig .tc .vmem S128x128 .f32) (harg2 : arg2.IsWhole) (arg3 : Memref sig .tc .vmem S2048x128 .bf16) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point
    `t` each input's buffer still at its block and the result's at `out0_2` of the two blocks; the invariant holds
    only what the body never touches (the other scoped buffers and the generator register); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
/-
  The second kernel region, part one: what its body does on any staging buffers, case by case.

  The grid is 8 row blocks by 16 column blocks, and point (i, k) sees the 2048 × 1024 block (i, k) of the adjacency
  array and the 1024 × 128 block k of the first region's result. The body keeps a 2048 × 128 accumulator in a scratch
  buffer across the 16 points of a row block: at k = 0 it first stores zeros over it, at every point it adds the product
  of the two blocks to it, and at k = 15 it copies it into the result's staging buffer, which it leaves untouched at
  every other point. So a point is in one of three cases — first column (reset and add), a middle column (add), last
  column (add and copy out) — and in each the body is run once, on whole staging buffers at given contents, to find the
  pieces its stores leave in the accumulator and in the result's buffer.
-/
import proofs.«166611_j35304631173973_1_alg».proof.Proof.Gen.Kernel.Launch
import proofs.«166611_j35304631173973_1_alg».proof.Proof.Gen.Kernel.Skeleton
import proofs.«166611_j35304631173973_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds the point's block whenever the body is called. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the window of the first region's result. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two branch conditions, decided over the grid -/

/-- "This is the first column block": the condition under which the body zeroes the accumulator. -/
abbrev cond1_0 (i : grid1.Coords) : Prop := (Scalar.cmpi .ne (Scalar.extui (Scalar.cmpi .eq (BitVec.ofNat 32 (i 1).val) 0#32)) 0#32) = 1#1
/-- It holds at the points whose number is a multiple of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column block": the condition under which the body copies the accumulator out. -/
abbrev cond1_1 (i : grid1.Coords) : Prop := k1_cond2 i = 1#1
/-- It holds at the points whose number is 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- In the first column the body stores nothing into the result's buffer, -/
theorem idleAt1_2_A : ∀ t : Fin cfg1.N, cond1_0 (grid1.coords t) → ¬cond1_1 (grid1.coords t) → cfg1.idle 2 (grid1.coords t) = true := by decide +kernel
/-- and the pipeline does not write it back there. -/
theorem noFlush1_2_A : ∀ t : Fin cfg1.N, cond1_0 (grid1.coords t) → ¬cond1_1 (grid1.coords t) → (cfg1.win 2).flush t = false := by decide +kernel
/-- The same in a middle column. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- In the last column the body stores into the result's buffer. -/
theorem liveAt1_2_C : ∀ t : Fin cfg1.N, ¬cond1_0 (grid1.coords t) → cond1_1 (grid1.coords t) → cfg1.idle 2 (grid1.coords t) = false := by decide +kernel

/-! ## The staging and scratch memrefs -/

/-- One staging buffer of the result window, through which its contents are stated. -/
abbrev VO1_2 : View sig .tc .vmem S2048x128 .f32 := (Memref.whole cc1_stg2_0 : Memref sig .tc .vmem S2048x128 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S2048x128 .f32 := Memref.whole cc1_scratch0
abbrev VS1_0 : View sig .tc .vmem S2048x128 .f32 := scM1_0.view

/-- The scoped buffers the second pipeline neither stages nor uses (the first pipeline's staging buffers), each at some
    contents, the accumulator at `S`, and the generator register at some state. -/
def rest1 (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

/-- What the pipeline hands the body besides the windows: all of that with the accumulator at anything. -/
theorem PhiA1_eq (c : Dev nD) :
    (Pipeline.ΦA spec1 c : sProp 𝕄) = rest1 c iprop(∃ d, owns (c : Thread nD τ) scM1_0 fullShare d) := by
  unfold Pipeline.ΦA rest1; rw [scopedRest1_eq]; simp only [scM1_0, owns_whole]; try rfl

/-! ## The body, case by case -/

set_option maxHeartbeats 2000000 in
/-- FIRST COLUMN (the reset is taken, the copy-out is not). The pieces the body's stores leave in the accumulator, with
    the proof that from whole memrefs — the inputs at `x0`, `x1`, the result's buffer at `xi2` (handed back
    untouched), the accumulator at anything — the body runs to the continuation with exactly that. -/
noncomputable def kernelRun1_A (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S2048x1024 .f32) (x1 : Vec F S1024x128 .bf16) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- A MIDDLE COLUMN (neither branch taken): the same with the accumulator entering at `xs0`, what the point before
    left in it. -/
noncomputable def kernelRun1_B (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S2048x1024 .f32) (x1 : Vec F S1024x128 .bf16) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- THE LAST COLUMN (the copy-out is taken, the reset is not): the result's buffer enters at anything and leaves with
    the pieces `L2` written, the accumulator enters at `xs0` and leaves with `LS0` written. -/
noncomputable def kernelRun1_C (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S2048x1024 .f32) (x1 : Vec F S1024x128 .bf16) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Reg1.lean ====
/-
  The second kernel region, part two: what the accumulator and the result's buffer hold after every grid point, and the
  body obligation of the pipeline.

  The contents are defined by recursion on the point's number n (point n is row block n / 16, column block n % 16): in
  the first column the accumulator is what the reset-and-add run leaves, whatever it held before; in every other column
  it is what the add run leaves over the contents after point n − 1; in the last column the result's buffer takes the
  accumulator. The pipeline's invariant between two points holds the accumulator at exactly these contents, which is
  how a point finds what the point before it left.
-/
import proofs.«166611_j35304631173973_1_alg».proof.Proof.K.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section Cases
variable (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole)

/-- First column: nothing is stored into the result's buffer; a placeholder nothing consults. -/
def out1_A_2 (hc0 : cond1_0 i) (hc1 : ¬cond1_1 i) (x0 : Vec F S2048x1024 .f32) (x1 : Vec F S1024x128 .bf16) : Vec F S2048x128 .f32 :=
  VO1_2.read (Elt F) (VO1_2.writes (Elt F) VO1_2.junk (kernelRun1_A c i arg2 harg2 arg3 harg3 arg4 harg4 arg5 harg5 hc0 hc1 x0 x1).1)

/-- First column: the two stores into the accumulator (zeros, then the sum) cover it. -/
theorem scover1_A_0 (hc0 : cond1_0 i) (hc1 : ¬cond1_1 i) (x0 : Vec F S2048x1024 .f32) (x1 : Vec F S1024x128 .bf16) (y : S2048x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x128.size (by sl_kernel_rfl) y

/-- What the first column leaves in the accumulator. -/
def sout1_A_0 (hc0 : cond1_0 i) (hc1 : ¬cond1_1 i) (x0 : Vec F S2048x1024 .f32) (x1 : Vec F S1024x128 .bf16) : Vec F S2048x128 .f32 :=
  VS1_0.read (Elt F) (VS1_0.writes (Elt F) VS1_0.junk (kernelRun1_A c i arg2 harg2 arg3 harg3 arg4 harg4 arg5 harg5 hc0 hc1 x0 x1).2.1)

/-- A middle column: nothing is stored into the result's buffer. -/
def out1_B_2 (hc0 : ¬cond1_0 i) (hc1 : ¬cond1_1 i) (x0 : Vec F S2048x1024 .f32) (x1 : Vec F S1024x128 .bf16) (xs0 : Vec F S2048x128 .f32) : Vec F S2048x128 .f32 :=
  VO1_2.read (Elt F) (VO1_2.writes (Elt F) VO1_2.junk (kernelRun1_B c i arg2 harg2 arg3 harg3 arg4 harg4 arg5 harg5 hc0 hc1 x0 x1 xs0).1)

theorem scover1_B_0 (hc0 : ¬cond1_0 i) (hc1 : ¬cond1_1 i) (x0 : Vec F S2048x1024 .f32) (x1 : Vec F S1024x128 .bf16) (xs0 : Vec F S2048x128 .f32) (y : S2048x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x128.size (by sl_kernel_rfl) y

/-- What a middle column leaves in the accumulator, over what it found there. -/
def sout1_B_0 (hc0 : ¬cond1_0 i) (hc1 : ¬cond1_1 i) (x0 : Vec F S2048x1024 .f32) (x1 : Vec F S1024x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 hc0 hc1 x0 x1 xs0).2.1)

/-- Last column: the one store into the result's buffer covers it. -/
theorem cover1_C_2 (hc0 : ¬cond1_0 i) (hc1 : cond1_1 i) (x0 : Vec F S2048x1024 .f32) (x1 : Vec F S1024x128 .bf16) (xs0 : Vec F S2048x128 .f32) (y : S2048x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x128.size (by sl_kernel_rfl) y

/-- What the last column leaves in the result's buffer. -/
def out1_C_2 (hc0 : ¬cond1_0 i) (hc1 : cond1_1 i) (x0 : Vec F S2048x1024 .f32) (x1 : Vec F S1024x128 .bf16) (xs0 : Vec F S2048x128 .f32) : Vec F S2048x128 .f32 :=
  VO1_2.read (Elt F) (VO1_2.writes (Elt F) VO1_2.junk (kernelRun1_C c i arg2 harg2 arg3 harg3 arg4 harg4 arg5 harg5 hc0 hc1 x0 x1 xs0).1)

theorem scover1_C_0 (hc0 : ¬cond1_0 i) (hc1 : cond1_1 i) (x0 : Vec F S2048x1024 .f32) (x1 : Vec F S1024x128 .bf16) (xs0 : Vec F S2048x128 .f32) (y : S2048x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x128.size (by sl_kernel_rfl) y

/-- What the last column leaves in the accumulator. -/
def sout1_C_0 (hc0 : ¬cond1_0 i) (hc1 : cond1_1 i) (x0 : Vec F S2048x1024 .f32) (x1 : Vec F S1024x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 hc0 hc1 x0 x1 xs0).2.1)

end Cases

/-! ## What the buffers hold after each point -/

/-- After point number `n`: the result's staging buffer (first component) and the accumulator (second). -/
def outsAt1 (c : Dev nD) : (n : ℕ) → n < cfg1.N → Vec F S2048x128 .f32 × Vec F S2048x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point of the first column. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point of a middle column: over what the point before left in the accumulator. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last column: over what the point before left in the accumulator. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point number `n`: at the start the accumulator holds anything; afterwards what point n − 1 left in it. -/
def PhiS1 (c : Dev nD) : (n : ℕ) → n ≤ cfg1.N → sProp 𝕄
  | 0, _ => Pipeline.ΦA spec1 c
  | n + 1, hn => rest1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = rest1 c (owns (c : Thread nD τ) scM1_0 fullShare ((outsAt1 V c n hn).2)) := rfl

theorem PhiS1_pos (c : Dev nD) (n : ℕ) (h : n ≤ cfg1.N) (hz : n ≠ 0) :
    PhiS1 V c n h = rest1 c (owns (c : Thread nD τ) scM1_0 fullShare ((outsAt1 V c (n - 1) (by omega)).2)) := by
  cases n with
  | zero => exact absurd rfl hz
  | succ n => rfl

/-! ## The pipeline's proof data -/

/-- The proof data of the second pipeline on core `c`: the arrays as the region finds them; after the body at point
    `t` each input's buffer still at its block and the result's at `outsAt1`'s first component; the invariant
    `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's number modulo 16 says which case it is in;
    the invariant hands the body the accumulator at what the point before left (at anything before the first point) and
    takes it back at this point's contents; where the body stores nothing into the result's buffer the buffer is handed
    back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold rest1
        iintro ⟨⟨⟨Ha, Hb, Hc, Hd, He, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]; unfold rest1
        iintro ⟨⟨⟨Ha, Hb, Hc, Hd, He, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]; unfold rest1
        iintro ⟨⟨⟨Ha, Hb, Hc, Hd, He, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold rest1
        iintro ⟨⟨⟨Ha, Hb, Hc, Hd, He, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the start the invariant gives the same back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Run.lean ====
/-
  The whole program run: the two kernel regions one after the other, from the launch to the return.

  Between its items the core's unscoped buffers hold: at launch the launch memory; after the first region the same with
  the first region's result array at what its eight write-backs leave; after the second region that with the second
  region's result array at what its write-backs leave. Neither region writes an argument array, so each argument is
  read back through these steps to its launch contents; and the program's result is the second region's array.
-/
import proofs.«166611_j35304631173973_1_alg».proof.Proof.K.Reg0
import proofs.«166611_j35304631173973_1_alg».proof.Proof.K.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m (c, b)
abbrev V1 : (c : Dev nD) → (b : Ref sig .tc) → Buf (Elt F) ((c : Thread nD τ).loc b) := fun c b => W0 m c b

/-- After the first region: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ## What the second region is entered with, and what the program ends with -/

/-- The second region finds the first region's result array at what the first region left. -/
theorem V2_main_v0 (c : Dev nD) : V2 m c main_v0 = (dat0 (V1 m) c).arrAt 2 cfg0.N := W2_arr m c 2
/-- It finds the adjacency array as launched: the first region does not touch it. -/
theorem V2_main_arg0 (c : Dev nD) : V2 m c main_arg0 = m ((c : Thread nD τ).loc main_arg0) :=
  W2_of_ne m c main_arg0 (by decide)
/-- The feature array, which the first region only reads, ends as launched. -/
theorem W2_main_arg1 (c : Dev nD) : W2 m c (Proc.devRef .tc main_arg1) = m ((c : Thread nD τ).loc main_arg1) :=
  (W2_arr m c 0).trans (((dat0 (V1 m) c).arrAt_in 0 rfl _).trans (A_eq0 (V1 m) c 0))
/-- So does the weight array. -/
theorem W2_main_arg2 (c : Dev nD) : W2 m c (Proc.devRef .tc main_arg2) = m ((c : Thread nD τ).loc main_arg2) :=
  (W2_arr m c 1).trans (((dat0 (V1 m) c).arrAt_in 1 rfl _).trans (A_eq0 (V1 m) c 1))

theorem W4_main_arg0 (c : Dev nD) : W4 m c (Proc.devRef .tc main_arg0) = m ((c : Thread nD τ).loc main_arg0) :=
  (W4_arr m c 0).trans ((((dat1 (V2 m) c).arrAt_in 0 rfl _).trans (A_eq1 (V2 m) c 0)).trans (V2_main_arg0 m c))
theorem W4_main_arg1 (c : Dev nD) : W4 m c (Proc.devRef .tc main_arg1) = m ((c : Thread nD τ).loc main_arg1) :=
  (W4_of_ne m c main_arg1 (by decide)).trans (W2_main_arg1 m c)
theorem W4_main_arg2 (c : Dev nD) : W4 m c (Proc.devRef .tc main_arg2) = m ((c : Thread nD τ).loc main_arg2) :=
  (W4_of_ne m c main_arg2 (by decide)).trans (W2_main_arg2 m c)
/-- The program's result array ends at what the second region's write-backs leave. -/
theorem W4_main_v1 (c : Dev nD) : W4 m c (Proc.devRef .tc main_v1) = (dat1 (V2 m) c).arrAt 2 cfg1.N := W4_arr m c 2

/-! ## The proof data family and the state between items -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as items of the program -/

set_option backward.isDefEq.respectTransparency.types false in
/-- The first region: entered with every unscoped buffer at the launch contents, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at `W2`, left at `W4`. Its invariant takes the scoped rest and the generator register in
    at the first point and gives them back after the last, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of the program terminates, nothing faulting, with
    the result array at what the second region's write-backs leave and the three argument arrays as launched. -/
theorem run_main : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_main_v1 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KI.Reg0.lean ====
/-
  The first kernel region: the feature rows times the weight matrix, one block of 2048 rows per grid point.

  At each of the 8 grid points the body reads the point's 2048 × 128 block of the feature array and the whole
  128 × 128 weight array, and stores their matrix product (accumulated from zero, rounded to the narrow format)
  over the whole 2048 × 128 staging buffer of the result. Nothing is kept between points, so what a point leaves
  in the result's buffer is one function of the two input blocks. Everything here is stated at a parameter `V`,
  the contents the core's buffers hold when the region is entered.
-/
import proofs.«166611_j35304631173973_1_alg».proof.Proof.Gen.KernelIdeal.Launch
import proofs.«166611_j35304631173973_1_alg».proof.Proof.Gen.KernelIdeal.Skeleton
import proofs.«166611_j35304631173973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's block of rows whenever the body is called, whether the
    pipeline fetched it at that point or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight array at every point: it is fetched once, at the first
    point, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev rX0 : Rect S2048x128 := Rect.unit (s := S2048x128) ![0, 0] S2048x128.size inb_S2048x128_S2048x128_0_0
abbrev rW0 : Rect S128x128 := Rect.unit (s := S128x128) ![0, 0] S128x128.size inb_S128x128_S128x128_0_0

/-! ## What the body leaves in the result's staging buffer -/

/-- The result window's staging buffer after the body, from the two input blocks: one store over the whole buffer,
    its value the product of the feature block and the weights. -/
def out0_2 (x0 : Vec F S2048x128 .f32) (x1 : Vec F S128x128 .f32) : Vec F S2048x128 .bf16 :=
  View.canon [⟨rX0, k0_pay1 (View.ld x0 rX0) (View.ld x1 rW0)⟩]

/-- That one store covers the buffer. -/
theorem cover0_2 (p0 : Vec F S2048x128 .bf16) (y : S2048x128.Idx) :
    ∃ pc ∈ ([⟨rX0, p0⟩] : List (View.Piece (Elt F) S2048x128 .bf16)), y ∈ pc.1.set :=
  View.cover_of_tiled [⟨rX0, p0⟩] S2048x128.size (by rfl) y

/-! ## The body's triple -/

set_option maxHeartbeats 1000000 in
/-- The body on whole staging memrefs, the inputs' at contents `x0`, `x1` and the result's at anything, runs to the
    continuation with the inputs as they were and the result's buffer at `out0_2 x0 x1`. -/
theorem sound_kernel0 (c : Dev nD) (E : Set ℕ) (i : grid0.Coords) (arg1 : Memref sig .tc .vmem S2048x128 .f32) (harg1 : arg1.IsWhole)
    (arg2 : Memref sig .tc .vmem S128x128 .f32) (harg2 : arg2.IsWhole) (arg3 : Memref sig .tc .vmem S2048x128 .bf16) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point
    `t` each input's buffer still at its block and the result's at `out0_2` of the two blocks; the invariant holds
    only what the body never touches (the other scoped buffers and the generator register); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
/-
  The second kernel region, part one: what its body does on any staging buffers, case by case.

  The grid is 8 row blocks by 16 column blocks, and point (i, k) sees the 2048 × 1024 block (i, k) of the adjacency
  array and the 1024 × 128 block k of the first region's result. The body keeps a 2048 × 128 accumulator in a scratch
  buffer across the 16 points of a row block: at k = 0 it first stores zeros over it, at every point it adds the product
  of the two blocks to it, and at k = 15 it copies it into the result's staging buffer, which it leaves untouched at
  every other point. So a point is in one of three cases — first column (reset and add), a middle column (add), last
  column (add and copy out) — and in each the body is run once, on whole staging buffers at given contents, to find the
  pieces its stores leave in the accumulator and in the result's buffer.
-/
import proofs.«166611_j35304631173973_1_alg».proof.Proof.Gen.KernelIdeal.Launch
import proofs.«166611_j35304631173973_1_alg».proof.Proof.Gen.KernelIdeal.Skeleton
import proofs.«166611_j35304631173973_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds the point's block whenever the body is called. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the window of the first region's result. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two branch conditions, decided over the grid -/

/-- "This is the first column block": the condition under which the body zeroes the accumulator. -/
abbrev cond1_0 (i : grid1.Coords) : Prop := (Scalar.cmpi .ne (Scalar.extui (Scalar.cmpi .eq (BitVec.ofNat 32 (i 1).val) 0#32)) 0#32) = 1#1
/-- It holds at the points whose number is a multiple of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last column block": the condition under which the body copies the accumulator out. -/
abbrev cond1_1 (i : grid1.Coords) : Prop := k1_cond2 i = 1#1
/-- It holds at the points whose number is 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- In the first column the body stores nothing into the result's buffer, -/
theorem idleAt1_2_A : ∀ t : Fin cfg1.N, cond1_0 (grid1.coords t) → ¬cond1_1 (grid1.coords t) → cfg1.idle 2 (grid1.coords t) = true := by decide +kernel
/-- and the pipeline does not write it back there. -/
theorem noFlush1_2_A : ∀ t : Fin cfg1.N, cond1_0 (grid1.coords t) → ¬cond1_1 (grid1.coords t) → (cfg1.win 2).flush t = false := by decide +kernel
/-- The same in a middle column. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- In the last column the body stores into the result's buffer. -/
theorem liveAt1_2_C : ∀ t : Fin cfg1.N, ¬cond1_0 (grid1.coords t) → cond1_1 (grid1.coords t) → cfg1.idle 2 (grid1.coords t) = false := by decide +kernel

/-! ## The staging and scratch memrefs -/

/-- One staging buffer of the result window, through which its contents are stated. -/
abbrev VO1_2 : View sig .tc .vmem S2048x128 .f32 := (Memref.whole cc1_stg2_0 : Memref sig .tc .vmem S2048x128 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S2048x128 .f32 := Memref.whole cc1_scratch0
abbrev VS1_0 : View sig .tc .vmem S2048x128 .f32 := scM1_0.view

/-- The scoped buffers the second pipeline neither stages nor uses (the first pipeline's staging buffers), each at some
    contents, the accumulator at `S`, and the generator register at some state. -/
def rest1 (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

/-- What the pipeline hands the body besides the windows: all of that with the accumulator at anything. -/
theorem PhiA1_eq (c : Dev nD) :
    (Pipeline.ΦA spec1 c : sProp 𝕄) = rest1 c iprop(∃ d, owns (c : Thread nD τ) scM1_0 fullShare d) := by
  unfold Pipeline.ΦA rest1; rw [scopedRest1_eq]; simp only [scM1_0, owns_whole]; try rfl

/-! ## The body, case by case -/

set_option maxHeartbeats 2000000 in
/-- FIRST COLUMN (the reset is taken, the copy-out is not). The pieces the body's stores leave in the accumulator, with
    the proof that from whole memrefs — the inputs at `x0`, `x1`, the result's buffer at `xi2` (handed back
    untouched), the accumulator at anything — the body runs to the continuation with exactly that. -/
noncomputable def kernelRun1_A (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S2048x1024 .f32) (x1 : Vec F S1024x128 .bf16) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- A MIDDLE COLUMN (neither branch taken): the same with the accumulator entering at `xs0`, what the point before
    left in it. -/
noncomputable def kernelRun1_B (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S2048x1024 .f32) (x1 : Vec F S1024x128 .bf16) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 2000000 in
/-- THE LAST COLUMN (the copy-out is taken, the reset is not): the result's buffer enters at anything and leaves with
    the pieces `L2` written, the accumulator enters at `xs0` and leaves with `LS0` written. -/
noncomputable def kernelRun1_C (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S2048x1024 .f32) (x1 : Vec F S1024x128 .bf16) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Reg1.lean ====
/-
  The second kernel region, part two: what the accumulator and the result's buffer hold after every grid point, and the
  body obligation of the pipeline.

  The contents are defined by recursion on the point's number n (point n is row block n / 16, column block n % 16): in
  the first column the accumulator is what the reset-and-add run leaves, whatever it held before; in every other column
  it is what the add run leaves over the contents after point n − 1; in the last column the result's buffer takes the
  accumulator. The pipeline's invariant between two points holds the accumulator at exactly these contents, which is
  how a point finds what the point before it left.
-/
import proofs.«166611_j35304631173973_1_alg».proof.Proof.KI.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section Cases
variable (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole)

/-- First column: nothing is stored into the result's buffer; a placeholder nothing consults. -/
def out1_A_2 (hc0 : cond1_0 i) (hc1 : ¬cond1_1 i) (x0 : Vec F S2048x1024 .f32) (x1 : Vec F S1024x128 .bf16) : Vec F S2048x128 .f32 :=
  VO1_2.read (Elt F) (VO1_2.writes (Elt F) VO1_2.junk (kernelRun1_A c i arg2 harg2 arg3 harg3 arg4 harg4 arg5 harg5 hc0 hc1 x0 x1).1)

/-- First column: the two stores into the accumulator (zeros, then the sum) cover it. -/
theorem scover1_A_0 (hc0 : cond1_0 i) (hc1 : ¬cond1_1 i) (x0 : Vec F S2048x1024 .f32) (x1 : Vec F S1024x128 .bf16) (y : S2048x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x128.size (by sl_kernel_rfl) y

/-- What the first column leaves in the accumulator. -/
def sout1_A_0 (hc0 : cond1_0 i) (hc1 : ¬cond1_1 i) (x0 : Vec F S2048x1024 .f32) (x1 : Vec F S1024x128 .bf16) : Vec F S2048x128 .f32 :=
  VS1_0.read (Elt F) (VS1_0.writes (Elt F) VS1_0.junk (kernelRun1_A c i arg2 harg2 arg3 harg3 arg4 harg4 arg5 harg5 hc0 hc1 x0 x1).2.1)

/-- A middle column: nothing is stored into the result's buffer. -/
def out1_B_2 (hc0 : ¬cond1_0 i) (hc1 : ¬cond1_1 i) (x0 : Vec F S2048x1024 .f32) (x1 : Vec F S1024x128 .bf16) (xs0 : Vec F S2048x128 .f32) : Vec F S2048x128 .f32 :=
  VO1_2.read (Elt F) (VO1_2.writes (Elt F) VO1_2.junk (kernelRun1_B c i arg2 harg2 arg3 harg3 arg4 harg4 arg5 harg5 hc0 hc1 x0 x1 xs0).1)

theorem scover1_B_0 (hc0 : ¬cond1_0 i) (hc1 : ¬cond1_1 i) (x0 : Vec F S2048x1024 .f32) (x1 : Vec F S1024x128 .bf16) (xs0 : Vec F S2048x128 .f32) (y : S2048x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x128.size (by sl_kernel_rfl) y

/-- What a middle column leaves in the accumulator, over what it found there. -/
def sout1_B_0 (hc0 : ¬cond1_0 i) (hc1 : ¬cond1_1 i) (x0 : Vec F S2048x1024 .f32) (x1 : Vec F S1024x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 hc0 hc1 x0 x1 xs0).2.1)

/-- Last column: the one store into the result's buffer covers it. -/
theorem cover1_C_2 (hc0 : ¬cond1_0 i) (hc1 : cond1_1 i) (x0 : Vec F S2048x1024 .f32) (x1 : Vec F S1024x128 .bf16) (xs0 : Vec F S2048x128 .f32) (y : S2048x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x128.size (by sl_kernel_rfl) y

/-- What the last column leaves in the result's buffer. -/
def out1_C_2 (hc0 : ¬cond1_0 i) (hc1 : cond1_1 i) (x0 : Vec F S2048x1024 .f32) (x1 : Vec F S1024x128 .bf16) (xs0 : Vec F S2048x128 .f32) : Vec F S2048x128 .f32 :=
  VO1_2.read (Elt F) (VO1_2.writes (Elt F) VO1_2.junk (kernelRun1_C c i arg2 harg2 arg3 harg3 arg4 harg4 arg5 harg5 hc0 hc1 x0 x1 xs0).1)

theorem scover1_C_0 (hc0 : ¬cond1_0 i) (hc1 : cond1_1 i) (x0 : Vec F S2048x1024 .f32) (x1 : Vec F S1024x128 .bf16) (xs0 : Vec F S2048x128 .f32) (y : S2048x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x128.size (by sl_kernel_rfl) y

/-- What the last column leaves in the accumulator. -/
def sout1_C_0 (hc0 : ¬cond1_0 i) (hc1 : cond1_1 i) (x0 : Vec F S2048x1024 .f32) (x1 : Vec F S1024x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 hc0 hc1 x0 x1 xs0).2.1)

end Cases

/-! ## What the buffers hold after each point -/

/-- After point number `n`: the result's staging buffer (first component) and the accumulator (second). -/
def outsAt1 (c : Dev nD) : (n : ℕ) → n < cfg1.N → Vec F S2048x128 .f32 × Vec F S2048x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point of the first column. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point of a middle column: over what the point before left in the accumulator. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last column: over what the point before left in the accumulator. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point number `n`: at the start the accumulator holds anything; afterwards what point n − 1 left in it. -/
def PhiS1 (c : Dev nD) : (n : ℕ) → n ≤ cfg1.N → sProp 𝕄
  | 0, _ => Pipeline.ΦA spec1 c
  | n + 1, hn => rest1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = rest1 c (owns (c : Thread nD τ) scM1_0 fullShare ((outsAt1 V c n hn).2)) := rfl

theorem PhiS1_pos (c : Dev nD) (n : ℕ) (h : n ≤ cfg1.N) (hz : n ≠ 0) :
    PhiS1 V c n h = rest1 c (owns (c : Thread nD τ) scM1_0 fullShare ((outsAt1 V c (n - 1) (by omega)).2)) := by
  cases n with
  | zero => exact absurd rfl hz
  | succ n => rfl

/-! ## The pipeline's proof data -/

/-- The proof data of the second pipeline on core `c`: the arrays as the region finds them; after the body at point
    `t` each input's buffer still at its block and the result's at `outsAt1`'s first component; the invariant
    `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's number modulo 16 says which case it is in;
    the invariant hands the body the accumulator at what the point before left (at anything before the first point) and
    takes it back at this point's contents; where the body stores nothing into the result's buffer the buffer is handed
    back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold rest1
        iintro ⟨⟨⟨Ha, Hb, Hc, Hd, He, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]; unfold rest1
        iintro ⟨⟨⟨Ha, Hb, Hc, Hd, He, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]; unfold rest1
        iintro ⟨⟨⟨Ha, Hb, Hc, Hd, He, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold rest1
        iintro ⟨⟨⟨Ha, Hb, Hc, Hd, He, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the start the invariant gives the same back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Run.lean ====
/-
  The whole program run: the two kernel regions one after the other, from the launch to the return.

  Between its items the core's unscoped buffers hold: at launch the launch memory; after the first region the same with
  the first region's result array at what its eight write-backs leave; after the second region that with the second
  region's result array at what its write-backs leave. Neither region writes an argument array, so each argument is
  read back through these steps to its launch contents; and the program's result is the second region's array.
-/
import proofs.«166611_j35304631173973_1_alg».proof.Proof.KI.Reg0
import proofs.«166611_j35304631173973_1_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m (c, b)
abbrev V1 : (c : Dev nD) → (b : Ref sig .tc) → Buf (Elt F) ((c : Thread nD τ).loc b) := fun c b => W0 m c b

/-- After the first region: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second region. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ## What the second region is entered with, and what the program ends with -/

/-- The second region finds the first region's result array at what the first region left. -/
theorem V2_main_v0 (c : Dev nD) : V2 m c main_v0 = (dat0 (V1 m) c).arrAt 2 cfg0.N := W2_arr m c 2
/-- It finds the adjacency array as launched: the first region does not touch it. -/
theorem V2_main_arg0 (c : Dev nD) : V2 m c main_arg0 = m ((c : Thread nD τ).loc main_arg0) :=
  W2_of_ne m c main_arg0 (by decide)
/-- The feature array, which the first region only reads, ends as launched. -/
theorem W2_main_arg1 (c : Dev nD) : W2 m c (Proc.devRef .tc main_arg1) = m ((c : Thread nD τ).loc main_arg1) :=
  (W2_arr m c 0).trans (((dat0 (V1 m) c).arrAt_in 0 rfl _).trans (A_eq0 (V1 m) c 0))
/-- So does the weight array. -/
theorem W2_main_arg2 (c : Dev nD) : W2 m c (Proc.devRef .tc main_arg2) = m ((c : Thread nD τ).loc main_arg2) :=
  (W2_arr m c 1).trans (((dat0 (V1 m) c).arrAt_in 1 rfl _).trans (A_eq0 (V1 m) c 1))

theorem W4_main_arg0 (c : Dev nD) : W4 m c (Proc.devRef .tc main_arg0) = m ((c : Thread nD τ).loc main_arg0) :=
  (W4_arr m c 0).trans ((((dat1 (V2 m) c).arrAt_in 0 rfl _).trans (A_eq1 (V2 m) c 0)).trans (V2_main_arg0 m c))
theorem W4_main_arg1 (c : Dev nD) : W4 m c (Proc.devRef .tc main_arg1) = m ((c : Thread nD τ).loc main_arg1) :=
  (W4_of_ne m c main_arg1 (by decide)).trans (W2_main_arg1 m c)
theorem W4_main_arg2 (c : Dev nD) : W4 m c (Proc.devRef .tc main_arg2) = m ((c : Thread nD τ).loc main_arg2) :=
  (W4_of_ne m c main_arg2 (by decide)).trans (W2_main_arg2 m c)
/-- The program's result array ends at what the second region's write-backs leave. -/
theorem W4_main_v1 (c : Dev nD) : W4 m c (Proc.devRef .tc main_v1) = (dat1 (V2 m) c).arrAt 2 cfg1.N := W4_arr m c 2

/-! ## The proof data family and the state between items -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as items of the program -/

set_option backward.isDefEq.respectTransparency.types false in
/-- The first region: entered with every unscoped buffer at the launch contents, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at `W2`, left at `W4`. Its invariant takes the scoped rest and the generator register in
    at the first point and gives them back after the last, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of the program terminates, nothing faulting, with
    the result array at what the second region's write-backs leave and the three argument arrays as launched. -/
theorem run_main : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_main_v1 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.Spec.lean ====
/-
  What both programs compute, as one function of the three argument arrays.

  With A the 16384 × 16384 adjacency array, X the 16384 × 128 feature array and W the 128 × 128 weight array, the result
  at row i and column j is

      ∑ q, A (i, q) · (∑ p, X (q, p) · W (p, j)),

  a sum over all 16384 columns of A of products with the entries of X · W. The reference computes exactly this. The
  kernel computes X · W first and then adds up the same 16384 products in 16 consecutive blocks of 1024 columns, block
  after block. Regrouping a finite sum into consecutive blocks changes nothing on the extended reals, whose addition is
  commutative and associative without exception; no entry needs to be finite for it.
-/
import Idealize.ShloMosaic.PureOps.Ideal.Laws
import Idealize.ShloMosaic.Lib.ValueIdx
import Mathlib.Logic.Equiv.Fin.Basic
import Mathlib.Data.Fintype.BigOperators

noncomputable section

open scoped BigOperators

namespace Cert.Spec

open Idealize.ShloMosaic Idealize.ShloMosaic.ValueIdx

/-- The arrays' index types. -/
abbrev IA : Type := (⟨2, ![16384, 16384]⟩ : Shape).Idx
abbrev IX : Type := (⟨2, ![16384, 128]⟩ : Shape).Idx
abbrev IW : Type := (⟨2, ![128, 128]⟩ : Shape).Idx

/-- Entry (q, j) of the product X · W. -/
def sup (X : IX → EReal) (W : IW → EReal) (q : Fin 16384) (j : Fin 128) : EReal :=
  ∑ p : Fin 128, X (ix2 q p) * W (ix2 p j)

/-- The product X · W as an array. -/
def support (X : IX → EReal) (W : IW → EReal) : IX → EReal :=
  fun e => sup X W ⟨(e 0).val, idx2_lt0 e⟩ ⟨(e 1).val, idx2_lt1 e⟩

/-- Entry (i, j) of A · (X · W). -/
def entry (A : IA → EReal) (X : IX → EReal) (W : IW → EReal) (i : Fin 16384) (j : Fin 128) : EReal :=
  ∑ q : Fin 16384, A (ix2 i q) * sup X W q j

/-- The result array: A · (X · W). -/
def G (A : IA → EReal) (X : IX → EReal) (W : IW → EReal) : IX → EReal :=
  fun e => entry A X W ⟨(e 0).val, idx2_lt0 e⟩ ⟨(e 1).val, idx2_lt1 e⟩

/-- Column `r` of the `k`-th block of 1024 columns. -/
def colOf (k : Fin 16) (r : Fin 1024) : Fin 16384 := ⟨1024 * k.val + r.val, by omega⟩

/-- A · S added up block by block: for each of the 16 blocks of 1024 columns of A, the products of the block's entries
    in row i with the matching rows of S, and then the 16 block sums together. -/
def aggBlocks (A : IA → EReal) (S : IX → EReal) : IX → EReal :=
  fun e => ∑ k : Fin 16, ∑ r : Fin 1024,
    A (ix2 (⟨(e 0).val, idx2_lt0 e⟩ : Fin 16384) (colOf k r)) * S (ix2 (colOf k r) (⟨(e 1).val, idx2_lt1 e⟩ : Fin 128))

/-- The support array read at row q and column j is the product's entry. -/
theorem support_ix2 (X : IX → EReal) (W : IW → EReal) (q : Fin 16384) (j : Fin 128) :
    support X W (ix2 q j) = sup X W q j := rfl

/-- The pairs (block, column within the block) number the 16384 columns: the pair (k, r) is column 1024 · k + r. -/
def blockEquiv : Fin 16 × Fin 1024 ≃ Fin 16384 := finProdFinEquiv

theorem blockEquiv_apply (k : Fin 16) (r : Fin 1024) : blockEquiv (k, r) = colOf k r :=
  Fin.ext (Nat.add_comm r.val (1024 * k.val))

/-- A sum over the 16384 columns is the sum over the 16 blocks of the sums over each block's 1024 columns. -/
theorem sum_blocks (f : Fin 16384 → EReal) : ∑ q : Fin 16384, f q = ∑ k : Fin 16, ∑ r : Fin 1024, f (colOf k r) := by
  rw [← Equiv.sum_comp blockEquiv f, Fintype.sum_prod_type]
  exact Finset.sum_congr rfl fun k _ => Finset.sum_congr rfl fun r _ => congrArg f (blockEquiv_apply k r)

/-- The sum over all columns, regrouped into the 16 blocks of 1024. -/
theorem entry_eq_sum_blocks (A : IA → EReal) (X : IX → EReal) (W : IW → EReal) (i : Fin 16384) (j : Fin 128) :
    entry A X W i j = ∑ k : Fin 16, ∑ r : Fin 1024, A (ix2 i (colOf k r)) * sup X W (colOf k r) j :=
  sum_blocks fun q => A (ix2 i q) * sup X W q j

/-- Adding up A · (X · W) block by block gives A · (X · W). -/
theorem aggBlocks_support (A : IA → EReal) (X : IX → EReal) (W : IW → EReal) :
    aggBlocks A (support X W) = G A X W := by
  funext e
  unfold aggBlocks G
  simp only [support_ix2]
  exact (entry_eq_sum_blocks A X W _ _).symm

end Cert.Spec

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KI.Val0.lean ====
/-
  The value the first kernel region leaves in its result array, at the ideal instance.

  At grid point t the body reads rows 2048 t … 2048 t + 2047 of the feature array X and the whole weight array W, and
  stores their product over the whole 2048 × 128 block, which the pipeline writes back to rows 2048 t … 2048 t + 2047 of
  the result. At the ideal instance a change of format is the identity and the product accumulated from zero is the plain
  sum of products, so entry (p, q) of the block is ∑ r, X (2048 t + p, r) · W (r, q): entry (2048 t + p, q) of X · W.
  Row i of the result lies in the block of point i / 2048, so the eight blocks cover the array and it ends holding X · W.
-/
import proofs.«166611_j35304631173973_1_alg».proof.Proof.KI.Reg0
import proofs.«166611_j35304631173973_1_alg».proof.Proof.Spec
import proofs.«166611_j35304631173973_1_alg».proof.Proof.LibDotPlain
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

/-! ## The body's arithmetic at an entry -/

/-- The two zero offsets, as the constant function. -/
theorem zero_offsets : (![0, 0] : Fin 2 → Nat) = fun _ => 0 := funext fun a => by fin_cases a <;> rfl

/-- The printed dimension numbers are those of the plain 2048 × 128 by 128 × 128 product. -/
theorem dims0_plain : dot_S2048x128_S128x128_S2048x128_1_0_0_1_n_n = DotDims.plain 2048 128 128 := rfl

/-- Entry (p, q) of what the body stores: the sum over r of x0 (p, r) · x1 (r, q). -/
theorem pay0_apply (x0 : Vec Ideal S2048x128 .f32) (x1 : Vec Ideal S128x128 .f32) (p : Fin 2048) (q : Fin 128) :
    k0_pay1 (F := Ideal) x0 x1 (ix2 p q) = ∑ r : Fin 128, x0 (ix2 p r) * x1 (ix2 r q) :=
  Cert.LibDotPlain.matmul_zero_plain 2048 128 128 (φ₁ := .bf16) (φ₂ := .bf16) none x0 x1 p q

/-! ## Where the windows' blocks sit -/

/-- The block indices at grid point t: the feature window and the result window are at row block t, the weight window
    at the one block there is. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable {F : FTy → Type} [FloatOps F]
variable (V : (c : Dev nD) → (b : Ref sig .tc) → Buf (Elt F) ((c : Thread nD τ).loc b))

/-- Entry x of the feature block at point t is entry (2048 t + x 0, x 1) of the feature array. -/
theorem iblk0_0_apply (c : Dev nD) (t : Fin cfg0.N) (x : S2048x128.Idx) (k : S16384x128.Idx)
    (hk0 : (k 0).val = 2048 * t.val + (x 0).val) (hk1 : (k 1).val = (x 1).val) :
    (iblk0 V c 0 t : Vec F S2048x128 .f32) x = (V c main_arg1 : S16384x128.Idx → Elt F .f32) k := by
  obtain ⟨e0, e1, -, -, -, -⟩ := block_index0 t
  unfold iblk0
  rw [View.read_apply]
  show V c main_arg1 _ = V c main_arg1 _
  congr 1
  funext a
  apply Fin.ext
  match a with
  | ⟨0, _⟩ => show win0_0.index t 0 * 2048 + 1 * (x 0).val = (k 0).val; rw [e0, hk0]; omega
  | ⟨1, _⟩ => show win0_0.index t 1 * 128 + 1 * (x 1).val = (k 1).val; rw [e1, hk1]; omega

/-- The weight block at every point is the weight array. -/
theorem iblk0_1_apply (c : Dev nD) (t : Fin cfg0.N) (x : S128x128.Idx) (k : S128x128.Idx)
    (hk0 : (k 0).val = (x 0).val) (hk1 : (k 1).val = (x 1).val) :
    (iblk0 V c 1 t : Vec F S128x128 .f32) x = (V c main_arg2 : S128x128.Idx → Elt F .f32) k := by
  obtain ⟨-, -, e0, e1, -, -⟩ := block_index0 t
  unfold iblk0
  rw [View.read_apply]
  show V c main_arg2 _ = V c main_arg2 _
  congr 1
  funext a
  apply Fin.ext
  match a with
  | ⟨0, _⟩ => show win0_1.index t 0 * 128 + 1 * (x 0).val = (k 0).val; rw [e0, hk0]; omega
  | ⟨1, _⟩ => show win0_1.index t 1 * 128 + 1 * (x 1).val = (k 1).val; rw [e1, hk1]; omega

end

/-! ## What each point writes back, and the array after the last point -/

section
variable (V : (c : Dev nD) → (b : Ref sig .tc) → Buf (Elt Ideal) ((c : Thread nD τ).loc b))

/-- What point t writes back is block t of X · W, X and W the two arrays as the region finds them. -/
theorem flushed0_eq (c : Dev nD) (t : Fin cfg0.N) :
    (dat0 (F := Ideal) V c).flushed 2 t
      = ((cfg0.win 2).blk t).view.read (Elt Ideal) (Cert.Spec.support (V c main_arg1) (V c main_arg2)) := by
  show (cfg0.win 2).cut (grid0.coords t) ((dat0 (F := Ideal) V c).after 2 t) = _
  rw [after0_2]
  unfold out0_2
  rw [View.canon_unit_zero zero_offsets]
  simp only [View.ld_unit_zero (S := S2048x128) zero_offsets, View.ld_unit_zero (S := S128x128) zero_offsets]
  obtain ⟨-, -, -, -, e0, e1⟩ := block_index0 t
  funext j
  show k0_pay1 (F := Ideal) (iblk0 V c 0 t) (iblk0 V c 1 t) j
    = Cert.Spec.support (V c main_arg1) (V c main_arg2) (((cfg0.win 2).blk t).view.emb j)
  obtain ⟨p, q, rfl⟩ : ∃ (p : Fin 2048) (q : Fin 128), j = ix2 p q := ⟨j 0, j 1, eq_ix2 j⟩
  refine (pay0_apply (iblk0 V c 0 t) (iblk0 V c 1 t) p q).trans ?_
  show _ = Cert.Spec.sup (V c main_arg1) (V c main_arg2) ⟨_, _⟩ ⟨_, _⟩
  unfold Cert.Spec.sup
  refine Finset.sum_congr rfl fun r _ => ?_
  congr 1
  · refine iblk0_0_apply V c t (ix2 p r) _ ?_ rfl
    show win0_2.index t 0 * 2048 + 1 * p.val = 2048 * t.val + p.val
    rw [e0]; omega
  · refine iblk0_1_apply V c t (ix2 r q) _ rfl ?_
    show win0_2.index t 1 * 128 + 1 * q.val = q.val
    rw [e1]; omega

/-- An entry of the result array is in point t's block iff each coordinate is in the block's range on its axis. -/
theorem mem_blk0 (t : Fin cfg0.N) (i : S16384x128.Idx) :
    i ∈ ((cfg0.win 2).blk t).view.set
      ↔ ∀ a : Fin 2, win0_2.index t a * S2048x128.size a ≤ (i a).val ∧ (i a).val < win0_2.index t a * S2048x128.size a + S2048x128.size a := by
  show i ∈ ((View.whole main_v0).slice (win0_2.rect t)).set ↔ _
  rw [View.set_slice_whole, Rect.mem_set_unit]
  exact Iff.rfl

/-- Row i of the result lies in the block of point i / 2048, which is written back. -/
theorem cover0 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 8 := N_0
  let t : Fin cfg0.N := ⟨(i 0).val / 2048, by rw [hN]; omega⟩
  have ht : t.val = (i 0).val / 2048 := rfl
  obtain ⟨-, -, -, -, e0, e1⟩ := block_index0 t
  refine ⟨t, flush0_2 t, ?_⟩
  rw [mem_blk0]
  intro a
  match a with
  | ⟨0, _⟩ =>
    show win0_2.index t (0 : Fin 2) * 2048 ≤ (i 0).val ∧ (i 0).val < win0_2.index t (0 : Fin 2) * 2048 + 2048
    rw [e0, ht]; omega
  | ⟨1, _⟩ =>
    show win0_2.index t (1 : Fin 2) * 128 ≤ (i 1).val ∧ (i 1).val < win0_2.index t (1 : Fin 2) * 128 + 128
    rw [e1]; omega

/-- After the last point the result array holds X · W. -/
theorem final0 (c : Dev nD) :
    ((dat0 (F := Ideal) V c).arrAt 2 cfg0.N : S16384x128.Idx → EReal)
      = Cert.Spec.support (V c main_arg1) (V c main_arg2) :=
  (dat0 (F := Ideal) V c).arrAt_eq_of_cover 2 (Cert.Spec.support (V c main_arg1) (V c main_arg2))
    (fun t _ => flushed0_eq V c t) cover0

end

end Cert.KernelIdeal.Hand

end
-- ==== Proof.KI.Val1Pieces.lean ====
/-
  The second kernel region: what each case of its body leaves, as the body's own arithmetic.

  In every case the accumulator ends at the body's one sum: what it held when that sum was formed, plus the product of
  the point's adjacency block and support block. In the first column what it held is the zeros just stored; elsewhere it
  is what the point found. In the last column the result's buffer takes that same value. Read at row p and column q over
  the extended reals, the sum is the accumulator's entry plus the 1024 products of row p of the adjacency block with
  column q of the support block: changing a number's format does nothing to its value, and the product accumulated from
  zero is a plain sum of products.
-/
import proofs.«166611_j35304631173973_1_alg».proof.Proof.KI.Reg1
import proofs.«166611_j35304631173973_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx
open scoped BigOperators

/-! ## What the cases leave, at any instance -/

/-- The rectangle every load and store of the body uses starts at the buffer's origin. -/
theorem origin2 : (![0, 0] : Fin 2 → Nat) = fun _ => 0 := funext fun a => by fin_cases a <;> rfl

section Pieces
variable (c : Dev nD) (i : grid1.Coords) (arg2 : Memref sig .tc .vmem S2048x1024 .f32) (harg2 : arg2.IsWhole) (arg3 : Memref sig .tc .vmem S1024x128 .bf16) (harg3 : arg3.IsWhole) (arg4 : Memref sig .tc .vmem S2048x128 .f32) (harg4 : arg4.IsWhole) (arg5 : Memref sig .tc .vmem S2048x128 .f32) (harg5 : arg5.IsWhole)

/-- First column: the accumulator ends at the sum formed over the zeros just stored. -/
theorem sout1_A_0_eq (hc0 : cond1_0 i) (hc1 : ¬cond1_1 i) (x0 : Vec F S2048x1024 .f32) (x1 : Vec F S1024x128 .bf16) :
    sout1_A_0 c i arg2 harg2 arg3 harg3 arg4 harg4 arg5 harg5 hc0 hc1 x0 x1 = k1_pay2 x0 (k1_pay1 (F := F)) x1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S2048x128) origin2, View.readCov_unit_zero (S := S2048x128) _ origin2]
  simp only [View.readAt_eq_ld, harg2.read_unread, harg3.read_unread, View.ld_unit_zero (S := S2048x1024) origin2, View.ld_unit_zero (S := S1024x128) origin2]

/-- A middle column: the accumulator ends at the sum formed over what the point found in it. -/
theorem sout1_B_0_eq (hc0 : ¬cond1_0 i) (hc1 : ¬cond1_1 i) (x0 : Vec F S2048x1024 .f32) (x1 : Vec F S1024x128 .bf16) (xs0 : Vec F S2048x128 .f32) :
    sout1_B_0 c i arg2 harg2 arg3 harg3 arg4 harg4 arg5 harg5 hc0 hc1 x0 x1 xs0 = k1_pay2 x0 xs0 x1 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero origin2]
  simp only [View.readAt_eq_ld, harg2.read_unread, harg3.read_unread, harg5.read_unread, View.ld_unit_zero (S := S2048x1024) origin2, View.ld_unit_zero (S := S1024x128) origin2, View.ld_unit_zero (S := S2048x128) origin2]

/-- Last column: the same for the accumulator, -/
theorem sout1_C_0_eq (hc0 : ¬cond1_0 i) (hc1 : cond1_1 i) (x0 : Vec F S2048x1024 .f32) (x1 : Vec F S1024x128 .bf16) (xs0 : Vec F S2048x128 .f32) :
    sout1_C_0 c i arg2 harg2 arg3 harg3 arg4 harg4 arg5 harg5 hc0 hc1 x0 x1 xs0 = k1_pay2 x0 xs0 x1 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero origin2]
  simp only [View.readAt_eq_ld, harg2.read_unread, harg3.read_unread, harg5.read_unread, View.ld_unit_zero (S := S2048x1024) origin2, View.ld_unit_zero (S := S1024x128) origin2, View.ld_unit_zero (S := S2048x128) origin2]

/-- and the result's buffer takes the accumulator's new value. -/
theorem out1_C_2_eq (hc0 : ¬cond1_0 i) (hc1 : cond1_1 i) (x0 : Vec F S2048x1024 .f32) (x1 : Vec F S1024x128 .bf16) (xs0 : Vec F S2048x128 .f32) :
    out1_C_2 c i arg2 harg2 arg3 harg3 arg4 harg4 arg5 harg5 hc0 hc1 x0 x1 xs0 = k1_pay2 x0 xs0 x1 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero origin2, View.readCov_unit_zero (S := S2048x128) _ origin2]
  simp only [View.readAt_eq_ld, harg2.read_unread, harg3.read_unread, harg5.read_unread, View.ld_unit_zero (S := S2048x1024) origin2, View.ld_unit_zero (S := S1024x128) origin2, View.ld_unit_zero (S := S2048x128) origin2]

end Pieces

/-! ## The body's arithmetic read at an entry, over the extended reals -/

/-- The zeros stored at the reset. -/
theorem k1_pay1_apply (p : Fin 2048) (q : Fin 128) : k1_pay1 (F := Ideal) (ix2 p q) = 0 := by
  unfold k1_pay1
  refine (congrFun (shapeCast_self _ _) (ix2 p q)).trans ?_
  exact Ideal.ofBits_zero_f32

/-- The body's sum at row p and column q: the accumulator's entry plus the products of row p of the adjacency block with
    column q of the support block. -/
theorem k1_pay2_apply (x0 : Vec Ideal S2048x1024 .f32) (s : Vec Ideal S2048x128 .f32) (x1 : Vec Ideal S1024x128 .bf16)
    (p : Fin 2048) (q : Fin 128) :
    k1_pay2 x0 s x1 (ix2 p q) = s (ix2 p q) + ∑ r : Fin 1024, x0 (ix2 p r) * x1 (ix2 r q) := by
  unfold k1_pay2
  refine (congrFun (shapeCast_self _ _) (ix2 p q)).trans ?_
  refine (addf_apply _ _ _).trans ?_
  refine congrArg (fun z => s (ix2 p q) + z) ?_
  rw [shapeCast_self]
  exact Cert.LibDotPlain.matmul_zero_plain 2048 1024 128 none (truncf .bf16 x0 bitsLt_bf16_f32) x1 p q

end Cert.KernelIdeal.Hand

end
-- ==== Proof.KI.Blocks1.lean ====
/-
  The second kernel region: where its windows' blocks sit in their arrays, and which points write the result back.

  Grid point number t is row block t / 16 and column block t % 16. Its adjacency block is rows 2048 (t / 16) … and columns
  1024 (t % 16) … of the adjacency array; its support block is rows 1024 (t % 16) … of the first region's result; its
  result block is rows 2048 (t / 16) … of the result array, written back only at the last column, t % 16 = 15. Row R of
  the result therefore lies in the block written back at point 16 (R / 2048) + 15.
-/
import proofs.«166611_j35304631173973_1_alg».proof.Proof.KI.Reg1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

/-- The block indices at grid point t. -/
theorem block_index1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

section
variable {F : FTy → Type} [FloatOps F]
variable (V : (c : Dev nD) → (b : Ref sig .tc) → Buf (Elt F) ((c : Thread nD τ).loc b))

/-- Entry x of the adjacency block at point t is entry (2048 (t / 16) + x 0, 1024 (t % 16) + x 1) of the adjacency array. -/
theorem iblk1_0_apply (c : Dev nD) (t : Fin cfg1.N) (x : S2048x1024.Idx) (k : S16384x16384.Idx)
    (hk0 : (k 0).val = 2048 * (t.val / 16) + (x 0).val) (hk1 : (k 1).val = 1024 * (t.val % 16) + (x 1).val) :
    (iblk1 V c 0 t : Vec F S2048x1024 .f32) x = (V c main_arg0 : S16384x16384.Idx → Elt F .f32) k := by
  obtain ⟨e0, e1, -, -, -, -⟩ := block_index1 t
  unfold iblk1
  rw [View.read_apply]
  show V c main_arg0 _ = V c main_arg0 _
  congr 1
  funext a
  apply Fin.ext
  match a with
  | ⟨0, _⟩ => show win1_0.index t 0 * 2048 + 1 * (x 0).val = (k 0).val; rw [e0, hk0]; omega
  | ⟨1, _⟩ => show win1_0.index t 1 * 1024 + 1 * (x 1).val = (k 1).val; rw [e1, hk1]; omega

/-- Entry x of the support block at point t is entry (1024 (t % 16) + x 0, x 1) of the first region's result. -/
theorem iblk1_1_apply (c : Dev nD) (t : Fin cfg1.N) (x : S1024x128.Idx) (k : S16384x128.Idx)
    (hk0 : (k 0).val = 1024 * (t.val % 16) + (x 0).val) (hk1 : (k 1).val = (x 1).val) :
    (iblk1 V c 1 t : Vec F S1024x128 .bf16) x = (V c main_v0 : S16384x128.Idx → Elt F .bf16) k := by
  obtain ⟨-, -, e0, e1, -, -⟩ := block_index1 t
  unfold iblk1
  rw [View.read_apply]
  show V c main_v0 _ = V c main_v0 _
  congr 1
  funext a
  apply Fin.ext
  match a with
  | ⟨0, _⟩ => show win1_1.index t 0 * 1024 + 1 * (x 0).val = (k 0).val; rw [e0, hk0]; omega
  | ⟨1, _⟩ => show win1_1.index t 1 * 128 + 1 * (x 1).val = (k 1).val; rw [e1, hk1]; omega

end

/-- An entry of the result array is in point t's block iff each coordinate is in the block's range on its axis. -/
theorem mem_blk1 (t : Fin cfg1.N) (i : S16384x128.Idx) :
    i ∈ ((cfg1.win 2).blk t).view.set
      ↔ ∀ a : Fin 2, win1_2.index t a * S2048x128.size a ≤ (i a).val ∧ (i a).val < win1_2.index t a * S2048x128.size a + S2048x128.size a := by
  show i ∈ ((View.whole main_v1).slice (win1_2.rect t)).set ↔ _
  rw [View.set_slice_whole, Rect.mem_set_unit]
  exact Iff.rfl

/-- Row R of the result lies in the block of point 16 (R / 2048) + 15, which is written back. -/
theorem cover1 (i : S16384x128.Idx) :
    ∃ t : Fin cfg1.N, (cfg1.win 2).flush t = true ∧ i ∈ ((cfg1.win 2).blk t).view.set := by
  have hi0 : (i 0).val < 16384 := (i 0).isLt
  have hi1 : (i 1).val < 128 := (i 1).isLt
  have hN : cfg1.N = 128 := N_1
  let t : Fin cfg1.N := ⟨16 * ((i 0).val / 2048) + 15, by rw [hN]; omega⟩
  have ht : t.val = 16 * ((i 0).val / 2048) + 15 := rfl
  obtain ⟨-, -, -, -, e0, e1⟩ := block_index1 t
  refine ⟨t, (flush1_2 t).mpr (by rw [ht]; omega), ?_⟩
  rw [mem_blk1]
  intro a
  match a with
  | ⟨0, _⟩ =>
    show win1_2.index t (0 : Fin 2) * 2048 ≤ (i 0).val ∧ (i 0).val < win1_2.index t (0 : Fin 2) * 2048 + 2048
    rw [e0, ht]; omega
  | ⟨1, _⟩ =>
    show win1_2.index t (1 : Fin 2) * 128 ≤ (i 1).val ∧ (i 1).val < win1_2.index t (1 : Fin 2) * 128 + 128
    rw [e1]; omega

end Cert.KernelIdeal.Hand

end
-- ==== Proof.KI.Val1.lean ====
/-
  The value the second kernel region leaves in its result array, at the ideal instance.

  The grid is 8 row blocks by 16 column blocks; point t is row block t / 16 and column block t % 16. With A the adjacency
  array and S the first region's result as the region finds them, the point sees the 2048 × 1024 block of A at rows
  2048 (t / 16) … and columns 1024 (t % 16) …, and the 1024 × 128 block of S at rows 1024 (t % 16) …. The accumulator is
  zeroed in the first column and every point adds the product of its two blocks to it, so after the point in column k entry
  (p, q) of the accumulator is the sum over the column blocks 0 … k of the 1024 products of row 2048 (t / 16) + p of A in
  that block with the matching rows of column q of S: by induction on the point's number. In the last column, k = 15, the
  result's buffer takes the accumulator, the sum over all sixteen blocks, and the pipeline writes it back to rows
  2048 (t / 16) … 2048 (t / 16) + 2047 of the result. Row R of the result lies in the block written back at point
  16 (R / 2048) + 15, so the eight write-backs cover the array and it ends holding A · S added up block by block.
-/
import proofs.«166611_j35304631173973_1_alg».proof.Proof.KI.Val1Pieces
import proofs.«166611_j35304631173973_1_alg».proof.Proof.KI.Blocks1
import proofs.«166611_j35304631173973_1_alg».proof.Proof.Spec
import Idealize.ShloMosaic.Lib.Pipeline.Value
import Idealize.ShloMosaic.Lib.ValueIdx
import Idealize.ShloMosaic.PureOps.Ideal.Laws
import Mathlib.Algebra.BigOperators.Fin

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

/-! ## The partial sums over the column blocks -/

/-- The products of row i of A in column block k with the matching rows of column q of S, added up; nothing past the
    sixteenth block. -/
def blockSum (A : Cert.Spec.IA → EReal) (S : Cert.Spec.IX → EReal) (i : Fin 16384) (q : Fin 128) (k : ℕ) : EReal :=
  if h : k < 16 then ∑ r : Fin 1024, A (ix2 i (Cert.Spec.colOf ⟨k, h⟩ r)) * S (ix2 (Cert.Spec.colOf ⟨k, h⟩ r) q) else 0

/-- The sum over the first sixteen blocks is the entry of A · S added up block by block. -/
theorem sum_blockSum (A : Cert.Spec.IA → EReal) (S : Cert.Spec.IX → EReal) (e : Cert.Spec.IX) (i : Fin 16384) (q : Fin 128)
    (hi : (e 0).val = i.val) (hq : (e 1).val = q.val) :
    ∑ k ∈ Finset.range 16, blockSum A S i q k = Cert.Spec.aggBlocks A S e := by
  obtain rfl : i = ⟨(e 0).val, idx2_lt0 e⟩ := Fin.ext hi.symm
  obtain rfl : q = ⟨(e 1).val, idx2_lt1 e⟩ := Fin.ext hq.symm
  unfold Cert.Spec.aggBlocks
  rw [Finset.sum_range]
  refine Finset.sum_congr rfl fun k _ => ?_
  unfold blockSum
  rw [dif_pos k.isLt]

section
variable {F : FTy → Type} [FloatOps F]
variable (V : (c : Dev nD) → (b : Ref sig .tc) → Buf (Elt F) ((c : Thread nD τ).loc b))

/-- In the last column the result's buffer ends holding what the accumulator ends holding. -/
theorem out_eq_acc1 (c : Dev nD) (t : Fin cfg1.N) (h15 : t.val % 16 = 15) :
    (outsAt1 V c t.val t.isLt).1 = (outsAt1 V c t.val t.isLt).2 := by
  have h0 : ¬t.val % 16 = 0 := by omega
  rw [outsAt1_C V c t h0 h15]
  dsimp only
  exact (out1_C_2_eq c (grid1.coords t) (ms1_0 t) (hs1_0 t) (ms1_1 t) (hs1_1 t) (ms1_2 t) (hs1_2 t) scM1_0 (Memref.isWhole_whole _)
      (fun h => h0 ((hcond1_0 t).mp h)) ((hcond1_1 t).mpr h15) (iblk1 V c 0 t) (iblk1 V c 1 t)
      (outsAt1 V c (t.val - 1) (Nat.lt_of_le_of_lt (Nat.sub_le _ _) t.isLt)).2).trans
    (sout1_C_0_eq c (grid1.coords t) (ms1_0 t) (hs1_0 t) (ms1_1 t) (hs1_1 t) (ms1_2 t) (hs1_2 t) scM1_0 (Memref.isWhole_whole _)
      (fun h => h0 ((hcond1_0 t).mp h)) ((hcond1_1 t).mpr h15) (iblk1 V c 0 t) (iblk1 V c 1 t)
      (outsAt1 V c (t.val - 1) (Nat.lt_of_le_of_lt (Nat.sub_le _ _) t.isLt)).2).symm

end

/-! ## The accumulator after each point -/

section
variable (V : (c : Dev nD) → (b : Ref sig .tc) → Buf (Elt Ideal) ((c : Thread nD τ).loc b))

/-- The adjacency array and the first region's result as the second region finds them, and the point's two blocks. -/
abbrev adj1 (c : Dev nD) : Cert.Spec.IA → EReal := V c main_arg0
abbrev sup1 (c : Dev nD) : Cert.Spec.IX → EReal := V c main_v0
abbrev ablk1 (c : Dev nD) (t : Fin cfg1.N) : Vec Ideal S2048x1024 .f32 := iblk1 V c 0 t
abbrev sblk1 (c : Dev nD) (t : Fin cfg1.N) : Vec Ideal S1024x128 .bf16 := iblk1 V c 1 t

/-- The product of the point's two blocks at (p, q) is the block sum of the point's column block, for the row of A that
    row p of the point's row block is. -/
theorem block_prod1 (c : Dev nD) (t : Fin cfg1.N) (i : Fin 16384) (p : Fin 2048) (q : Fin 128) (m : ℕ)
    (hi : i.val = 2048 * (t.val / 16) + p.val) (hm : t.val % 16 = m) :
    ∑ r : Fin 1024, ablk1 V c t (ix2 p r) * sblk1 V c t (ix2 r q) = blockSum (adj1 V c) (sup1 V c) i q m := by
  subst hm
  have hlt : t.val % 16 < 16 := Nat.mod_lt _ (by norm_num)
  unfold blockSum
  rw [dif_pos hlt]
  refine Finset.sum_congr rfl fun r _ => ?_
  congr 1
  · exact iblk1_0_apply V c t (ix2 p r) (ix2 i (Cert.Spec.colOf ⟨t.val % 16, hlt⟩ r)) hi rfl
  · exact iblk1_1_apply V c t (ix2 r q) (ix2 (Cert.Spec.colOf ⟨t.val % 16, hlt⟩ r) q) rfl rfl

/-- After point number n, in column block m = n % 16 of row block n / 16, entry (p, q) of the accumulator is the sum of
    the block sums of the column blocks 0 … m, for the row of A that row p of the row block is. -/
theorem acc_eq1 (c : Dev nD) : ∀ (n : ℕ) (hn : n < cfg1.N) (i : Fin 16384) (p : Fin 2048) (q : Fin 128) (m : ℕ),
    i.val = 2048 * (n / 16) + p.val → n % 16 = m →
    ((outsAt1 V c n hn).2 (ix2 p q) : EReal) = ∑ k ∈ Finset.range (m + 1), blockSum (adj1 V c) (sup1 V c) i q k := by
  intro n
  induction n using Nat.strong_induction_on with
  | _ n ih =>
    intro hn i p q m hi hm
    have hN : n < 128 := lt_of_lt_of_eq hn N_1
    by_cases h0 : n % 16 = 0
    · have h1 : ¬n % 16 = 15 := by omega
      obtain rfl : m = 0 := by omega
      rw [outsAt1_A V c ⟨n, hn⟩ h0 h1]
      dsimp only
      refine (congrFun (sout1_A_0_eq c (grid1.coords ⟨n, hn⟩) (ms1_0 ⟨n, hn⟩) (hs1_0 ⟨n, hn⟩) (ms1_1 ⟨n, hn⟩) (hs1_1 ⟨n, hn⟩)
        (ms1_2 ⟨n, hn⟩) (hs1_2 ⟨n, hn⟩) scM1_0 (Memref.isWhole_whole _) ((hcond1_0 ⟨n, hn⟩).mpr h0)
        (fun h => h1 ((hcond1_1 ⟨n, hn⟩).mp h)) (ablk1 V c ⟨n, hn⟩) (sblk1 V c ⟨n, hn⟩)) (ix2 p q)).trans ?_
      refine (k1_pay2_apply (ablk1 V c ⟨n, hn⟩) (k1_pay1 (F := Ideal)) (sblk1 V c ⟨n, hn⟩) p q).trans ?_
      rw [k1_pay1_apply p q, zero_add, Finset.sum_range_one]
      exact block_prod1 V c ⟨n, hn⟩ i p q 0 hi h0
    · have hpos : 0 < n := by omega
      have hprev : n - 1 < cfg1.N := Nat.lt_of_le_of_lt (Nat.sub_le _ _) hn
      obtain ⟨m', rfl⟩ : ∃ m', m = m' + 1 := ⟨m - 1, by omega⟩
      have ihp : ((outsAt1 V c (n - 1) hprev).2 (ix2 p q) : EReal)
          = ∑ k ∈ Finset.range (m' + 1), blockSum (adj1 V c) (sup1 V c) i q k :=
        ih (n - 1) (by omega) hprev i p q m' (by omega) (by omega)
      by_cases h1 : n % 16 = 15
      · rw [outsAt1_C V c ⟨n, hn⟩ h0 h1]
        dsimp only
        refine (congrFun (sout1_C_0_eq c (grid1.coords ⟨n, hn⟩) (ms1_0 ⟨n, hn⟩) (hs1_0 ⟨n, hn⟩) (ms1_1 ⟨n, hn⟩) (hs1_1 ⟨n, hn⟩)
          (ms1_2 ⟨n, hn⟩) (hs1_2 ⟨n, hn⟩) scM1_0 (Memref.isWhole_whole _) (fun h => h0 ((hcond1_0 ⟨n, hn⟩).mp h))
          ((hcond1_1 ⟨n, hn⟩).mpr h1) (ablk1 V c ⟨n, hn⟩) (sblk1 V c ⟨n, hn⟩) (outsAt1 V c (n - 1) hprev).2) (ix2 p q)).trans ?_
        refine (k1_pay2_apply (ablk1 V c ⟨n, hn⟩) (outsAt1 V c (n - 1) hprev).2 (sblk1 V c ⟨n, hn⟩) p q).trans ?_
        rw [ihp, Finset.sum_range_succ _ (m' + 1)]
        exact congrArg _ (block_prod1 V c ⟨n, hn⟩ i p q (m' + 1) hi hm)
      · rw [outsAt1_B V c ⟨n, hn⟩ h0 h1]
        dsimp only
        refine (congrFun (sout1_B_0_eq c (grid1.coords ⟨n, hn⟩) (ms1_0 ⟨n, hn⟩) (hs1_0 ⟨n, hn⟩) (ms1_1 ⟨n, hn⟩) (hs1_1 ⟨n, hn⟩)
          (ms1_2 ⟨n, hn⟩) (hs1_2 ⟨n, hn⟩) scM1_0 (Memref.isWhole_whole _) (fun h => h0 ((hcond1_0 ⟨n, hn⟩).mp h))
          (fun h => h1 ((hcond1_1 ⟨n, hn⟩).mp h)) (ablk1 V c ⟨n, hn⟩) (sblk1 V c ⟨n, hn⟩) (outsAt1 V c (n - 1) hprev).2) (ix2 p q)).trans ?_
        refine (k1_pay2_apply (ablk1 V c ⟨n, hn⟩) (outsAt1 V c (n - 1) hprev).2 (sblk1 V c ⟨n, hn⟩) p q).trans ?_
        rw [ihp, Finset.sum_range_succ _ (m' + 1)]
        exact congrArg _ (block_prod1 V c ⟨n, hn⟩ i p q (m' + 1) hi hm)

end

/-! ## What the last column writes back, and the array after the last point -/

section
variable (V : (c : Dev nD) → (b : Ref sig .tc) → Buf (Elt Ideal) ((c : Thread nD τ).loc b))

/-- What a point of the last column writes back is its block of A · S added up block by block, A and S the two arrays as
    the region finds them. -/
theorem flushed1_eq (c : Dev nD) (t : Fin cfg1.N) (hf : (cfg1.win 2).flush t = true) :
    (dat1 (F := Ideal) V c).flushed 2 t
      = ((cfg1.win 2).blk t).view.read (Elt Ideal) (Cert.Spec.aggBlocks (V c main_arg0) (V c main_v0)) := by
  have h15 : t.val % 16 = 15 := (flush1_2 t).mp hf
  have hN : t.val < 128 := lt_of_lt_of_eq t.isLt N_1
  show (cfg1.win 2).cut (grid1.coords t) ((dat1 (F := Ideal) V c).after 2 t) = _
  rw [after1_2, out_eq_acc1 V c t h15]
  obtain ⟨-, -, -, -, e0, e1⟩ := block_index1 t
  funext j
  show ((outsAt1 V c t.val t.isLt).2 j : EReal)
    = Cert.Spec.aggBlocks (V c main_arg0) (V c main_v0) (((cfg1.win 2).blk t).view.emb j)
  obtain ⟨p, q, rfl⟩ : ∃ (p : Fin 2048) (q : Fin 128), j = ix2 p q := ⟨j 0, j 1, eq_ix2 j⟩
  have hp : p.val < 2048 := p.isLt
  refine (acc_eq1 V c t.val t.isLt ⟨2048 * (t.val / 16) + p.val, by omega⟩ p q 15 rfl h15).trans ?_
  refine sum_blockSum (adj1 V c) (sup1 V c) _ _ q ?_ ?_
  · show win1_2.index t 0 * 2048 + 1 * p.val = 2048 * (t.val / 16) + p.val
    rw [e0]; omega
  · show win1_2.index t 1 * 128 + 1 * q.val = q.val
    rw [e1]; omega

/-- After the last point the result array holds A · S added up block by block. -/
theorem final1 (c : Dev nD) :
    ((dat1 (F := Ideal) V c).arrAt 2 cfg1.N : S16384x128.Idx → EReal)
      = Cert.Spec.aggBlocks (V c main_arg0) (V c main_v0) :=
  (dat1 (F := Ideal) V c).arrAt_eq_of_cover 2 (Cert.Spec.aggBlocks (V c main_arg0) (V c main_v0))
    (fun t hf => flushed1_eq V c t hf) cover1

end

end Cert.KernelIdeal.Hand

end
-- ==== Proof.KI.Value.lean ====
/-
  The idealized kernel program's result, as a function of its three argument arrays.

  The second region leaves in the result array the blockwise sum of the adjacency array against the array it found in
  the first region's result; it found the adjacency array as launched and the first region's result at the product of
  the feature and weight arrays; and the blockwise sum of A against X · W is A · (X · W).
-/
import proofs.«166611_j35304631173973_1_alg».proof.Proof.KI.Run
import proofs.«166611_j35304631173973_1_alg».proof.Proof.KI.Val0
import proofs.«166611_j35304631173973_1_alg».proof.Proof.KI.Val1
import proofs.«166611_j35304631173973_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The program's result array, after the run, is A · (X · W) of the launch contents of its arguments. -/
theorem kernel_value (m : (ℓ : Loc nD τ sig) → Buf (Elt Ideal) ℓ) (c : Dev nD) :
    ((dat1 (F := Ideal) (V2 m) c).arrAt 2 cfg1.N : S16384x128.Idx → EReal)
      = Cert.Spec.G (m ((c : Thread nD τ).loc main_arg0)) (m ((c : Thread nD τ).loc main_arg1)) (m ((c : Thread nD τ).loc main_arg2)) := by
  rw [final1 (V2 m) c, V2_main_arg0 m c, V2_main_v0 m c, final0 (V1 m) c]
  exact Cert.Spec.aggBlocks_support _ _ _

end Cert.KernelIdeal.Hand

end
-- ==== Proof.RefSide.lean ====
/-
  The reference program read back: its run ends with the result array at the composed term of its two host products.

  The reference forms X · W and then A · (X · W), each as one product over the extended reals. Read at row i and
  column j the outer product is the sum over all 16384 columns q of A (i, q) times the inner product's entry (q, j),
  and that entry is the sum over p of X (q, p) · W (p, j). This is the specification's result array term for term:
  only the way an index is written from its two coordinates differs.
-/
import proofs.«166611_j35304631173973_1_alg».proof.Proof.Gen.ReferenceIdeal.Read
import proofs.«166611_j35304631173973_1_alg».proof.Proof.Spec
import proofs.«166611_j35304631173973_1_alg».proof.Proof.LibDotPlain

noncomputable section

open scoped BigOperators

namespace Cert.ReferenceIdeal.RefValue

open Cert.ReferenceIdeal Cert.ReferenceIdeal.Read Idealize.ShloMosaic Idealize.ShloMosaic.ValueIdx

/-- The outer product's left index at row `e 0` and contraction position `k` is the pair (row, k). -/
theorem lidx_v1_eq (e : S16384x128.Idx) (k : Fin 16384) :
    lidx_main_v1 e k = ix2 (⟨(e 0).val, idx2_lt0 e⟩ : Fin 16384) k :=
  funext fun a => Fin.ext (by match a with | ⟨0, _⟩ => rfl | ⟨1, _⟩ => rfl)

/-- The outer product's right index at column `e 1` and contraction position `k` is the pair (k, column). -/
theorem ridx_v1_eq (e : S16384x128.Idx) (k : Fin 16384) :
    ridx_main_v1 e k = ix2 k (⟨(e 1).val, idx2_lt1 e⟩ : Fin 128) :=
  funext fun a => Fin.ext (by match a with | ⟨0, _⟩ => rfl | ⟨1, _⟩ => rfl)

/-- The inner product's left index at the entry (q, j) and contraction position `p` is the pair (q, p). -/
theorem lidx_v0_eq (q : Fin 16384) (j : Fin 128) (p : Fin 128) :
    lidx_main_v0 (ix2 q j) p = ix2 q p :=
  funext fun a => Fin.ext (by match a with | ⟨0, _⟩ => rfl | ⟨1, _⟩ => rfl)

/-- The inner product's right index at the entry (q, j) and contraction position `p` is the pair (p, j). -/
theorem ridx_v0_eq (q : Fin 16384) (j : Fin 128) (p : Fin 128) :
    ridx_main_v0 (ix2 q j) p = ix2 p j :=
  funext fun a => Fin.ext (by match a with | ⟨0, _⟩ => rfl | ⟨1, _⟩ => rfl)

/-- The reference's result is the specification's array A · (X · W). -/
theorem ref_eq (A : (⟨Cert.ReferenceIdeal.S16384x16384, .f32⟩ : BufTy).Contents (Elt Ideal))
    (X : (⟨Cert.ReferenceIdeal.S16384x128, .f32⟩ : BufTy).Contents (Elt Ideal))
    (W : (⟨Cert.ReferenceIdeal.S128x128, .f32⟩ : BufTy).Contents (Elt Ideal)) :
    Cert.ReferenceIdeal.Read.val_main_v1 (F := Ideal) A X W = Cert.Spec.G A X W := by
  funext e
  rw [val_main_v1_apply]
  unfold Cert.Spec.G Cert.Spec.entry
  refine Finset.sum_congr rfl fun k _ => ?_
  rw [lidx_v1_eq, ridx_v1_eq, val_main_v0_apply]
  unfold Cert.Spec.sup
  simp only [lidx_v0_eq, ridx_v0_eq]

end Cert.ReferenceIdeal.RefValue

end
-- ==== Proof.lean ====
/-
  Graph convolution: the kernel computes A · (X · W) — first X · W, one block of 2048 rows at a time, then A times that,
  adding up 16 blocks of 1024 columns of A per block of 2048 rows in an accumulator it keeps between grid steps — and the
  reference computes the same two matrix products whole. Over the extended reals the two agree entry by entry: a change
  of number format is the identity there, a product accumulated from zero is a plain sum of products, and splitting a
  finite sum into consecutive blocks changes nothing, since addition of extended reals is commutative and associative
  without exception. No entry of the inputs has to be finite for this, so the precondition is never opened.

  The three frames: each kernel program runs its two regions one after the other, neither of which writes an argument
  array; the reference is two host operations. The idealization rewrote nothing, so there is nothing to preserve.
-/
import proofs.«166611_j35304631173973_1_alg».proof.Defs
import proofs.«166611_j35304631173973_1_alg».proof.Proof.Gen.Kernel
import proofs.«166611_j35304631173973_1_alg».proof.Proof.Gen.KernelIdeal
import proofs.«166611_j35304631173973_1_alg».proof.Proof.Gen.ReferenceIdeal
import proofs.«166611_j35304631173973_1_alg».proof.Proof.Gen.Pre_finite_inputs
import proofs.«166611_j35304631173973_1_alg».proof.Proof.K.Run
import proofs.«166611_j35304631173973_1_alg».proof.Proof.KI.Run
import proofs.«166611_j35304631173973_1_alg».proof.Proof.KI.Value
import proofs.«166611_j35304631173973_1_alg».proof.Proof.RefSide
import proofs.«166611_j35304631173973_1_alg».proof.Proof.Spec

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at A · (X · W) of the arguments they agree on. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.RefValue.ref_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
